-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x2048 : Shape := ⟨2, ![4096, 2048]⟩
abbrev S1x4096 : Shape := ⟨2, ![1, 4096]⟩
abbrev S4096x32 : Shape := ⟨2, ![4096, 32]⟩
abbrev S_ : Shape := ⟨0, ![]⟩

class Facts : Prop where
  bcast_S_S1x4096 : S_.BroadcastsInDim S1x4096 (![] : Fin 0 → Fin S1x4096.rank)
  reducesTo_S1x4096_S_d0_1 : S1x4096.ReducesTo [0, 1] S_
  h_S_ : 0 < S_.numel

variable [Facts]

def fn {F : FTy → Type} [FloatOps F] (main_arg0 : IVec S4x2048x4096 32) (main_arg1 : IVec S4096x2048 32) (main_arg2 : FVec F S1x4096 .f32) (main_arg3 : FVec F S1x4096 .f32) (main_arg4 : FVec F S1x4096 .f32) (main_arg5 : IVec S4096x32 32) (main_arg6 : IVec S4096x32 32) : IVec S_ 1 :=
  let main_v0 : FVec F S1x4096 .f32 := Host.absf main_arg2
  let main_cst : FVec F S_ .f32 := constant S_ .f32 0x7F800000#32
  let main_v1 : FVec F S1x4096 .f32 := broadcastInDim S1x4096 ![] bcast_S_S1x4096 main_cst
  let main_v2 : IVec S1x4096 1 := cmpf .olt main_v0 main_v1
  let main_c : IVec S_ 1 := constantI S_ 1 1#1
  let main_v3 : IVec S_ 1 := (fun x v => Host.reduce IntOp.andi x v reducesTo_S1x4096_S_d0_1 h_S_) main_v2 main_c
  let main_v4 : FVec F S1x4096 .f32 := Host.absf main_arg3
  let main_cst_0 : FVec F S_ .f32 := constant S_ .f32 0x7F800000#32
  let main_v5 : FVec F S1x4096 .f32 := broadcastInDim S1x4096 ![] bcast_S_S1x4096 main_cst_0
  let main_v6 : IVec S1x4096 1 := cmpf .olt main_v4 main_v5
  let main_c_1 : IVec S_ 1 := constantI S_ 1 1#1
  let main_v7 : IVec S_ 1 := (fun x v => Host.reduce IntOp.andi x v reducesTo_S1x4096_S_d0_1 h_S_) main_v6 main_c_1
  let main_v8 : IVec S_ 1 := andi main_v3 main_v7
  let main_v9 : FVec F S1x4096 .f32 := Host.absf main_arg4
  let main_cst_2 : FVec F S_ .f32 := constant S_ .f32 0x7F800000#32
  let main_v10 : FVec F S1x4096 .f32 := broadcastInDim S1x4096 ![] bcast_S_S1x4096 main_cst_2
  let main_v11 : IVec S1x4096 1 := cmpf .olt main_v9 main_v10
  let main_c_3 : IVec S_ 1 := constantI S_ 1 1#1
  let main_v12 : IVec S_ 1 := (fun x v => Host.reduce IntOp.andi x v reducesTo_S1x4096_S_d0_1 h_S_) main_v11 main_c_3
  let main_v13 : IVec S_ 1 := andi main_v8 main_v12
  main_v13
-- ==== Kernel.lean ====
abbrev S4x2048x4096 : Shape := ⟨3, ![4, 2048, 4096]⟩
abbrev S4096x2048 : Shape := ⟨2, ![4096, 2048]⟩
abbrev S1x4096 : Shape := ⟨2, ![1, 4096]⟩
abbrev S4096x32 : Shape := ⟨2, ![4096, 32]⟩
abbrev S8192x4096 : Shape := ⟨2, ![8192, 4096]⟩
abbrev S_ : Shape := ⟨0, ![]⟩
abbrev S4096x2048x1 : Shape := ⟨3, ![4096, 2048, 1]⟩
abbrev S4096x2048x2 : Shape := ⟨3, ![4096, 2048, 2]⟩
abbrev S4096x4096 : Shape := ⟨2, ![4096, 4096]⟩
abbrev S4096x32x128 : Shape := ⟨3, ![4096, 32, 128]⟩
abbrev S1024x512 : Shape := ⟨2, ![1024, 512]⟩
abbrev S512x512 : Shape := ⟨2, ![512, 512]⟩
abbrev S1x512 : Shape := ⟨2, ![1, 512]⟩

abbrev nBuf : Space → Nat
  | .hbm => 31
  | .vmem => 13
  | .smem => 0
  | _ => 0

abbrev bufTy : (tb : Table) → Fin (tcTables nBuf tb) → BufTy
  | .hbm, ⟨0, _⟩ => ⟨S4x2048x4096, .i32⟩
  | .hbm, ⟨1, _⟩ => ⟨S4096x2048, .i32⟩
  | .hbm, ⟨2, _⟩ => ⟨S1x4096, .f32⟩
  | .hbm, ⟨3, _⟩ => ⟨S1x4096, .f32⟩
  | .hbm, ⟨4, _⟩ => ⟨S1x4096, .f32⟩
  | .hbm, ⟨5, _⟩ => ⟨S4096x32, .i32⟩
  | .hbm, ⟨6, _⟩ => ⟨S4096x32, .i32⟩
  | .hbm, ⟨7, _⟩ => ⟨S8192x4096, .i32⟩
  | .hbm, ⟨8, _⟩ => ⟨S_, .i32⟩
  | .hbm, ⟨9, _⟩ => ⟨S4096x2048, .i32⟩
  | .hbm, ⟨10, _⟩ => ⟨S4096x2048, .i32⟩
  | .hbm, ⟨11, _⟩ => ⟨S_, .i32⟩
  | .hbm, ⟨12, _⟩ => ⟨S4096x2048, .i32⟩
  | .hbm, ⟨13, _⟩ => ⟨S4096x2048, .i32⟩
  | .hbm, ⟨14, _⟩ => ⟨S_, .i32⟩
  | .hbm, ⟨15, _⟩ => ⟨S4096x2048, .i32⟩
  | .hbm, ⟨16, _⟩ => ⟨S4096x2048, .i32⟩
  | .hbm, ⟨17, _⟩ => ⟨S4096x2048x1, .i32⟩
  | .hbm, ⟨18, _⟩ => ⟨S4096x2048x1, .i32⟩
  | .hbm, ⟨19, _⟩ => ⟨S4096x2048x2, .i32⟩
  | .hbm, ⟨20, _⟩ => ⟨S4096x4096, .i32⟩
  | .hbm, ⟨21, _⟩ => ⟨S4096x32x128, .i32⟩
  | .hbm, ⟨22, _⟩ => ⟨S4096x4096, .i32⟩
  | .hbm, ⟨23, _⟩ => ⟨S4096x32x128, .i32⟩
  | .hbm, ⟨24, _⟩ => ⟨S4096x4096, .i32⟩
  | .hbm, ⟨25, _⟩ => ⟨S4096x4096, .i32⟩
  | .hbm, ⟨26, _⟩ => ⟨S4096x4096, .i32⟩
  | .hbm, ⟨27, _⟩ => ⟨S4096x4096, .bf16⟩
  | .hbm, ⟨28, _⟩ => ⟨S4096x4096, .bf16⟩
  | .hbm, ⟨29, _⟩ => ⟨S8192x4096, .f32⟩
  | .hbm, ⟨30, _⟩ => ⟨S4x2048x4096, .f32⟩
  | .local _ .vmem, ⟨0, _⟩ => ⟨S1024x512, .i32⟩
  | .local _ .vmem, ⟨1, _⟩ => ⟨S1024x512, .i32⟩
  | .local _ .vmem, ⟨2, _⟩ => ⟨S512x512, .bf16⟩
  | .local _ .vmem, ⟨3, _⟩ => ⟨S512x512, .bf16⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | _, _ => ⟨S4x2048x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 8, 8], ![false, false, false]⟩

def k0_cond2 (i : grid0.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S4x2048x4096_S8192x4096 : S4x2048x4096.ShapeCasts S8192x4096
  bcast_S_S4096x2048 : S_.BroadcastsInDim S4096x2048 (![] : Fin 0 → Fin S4096x2048.rank)
  bcast_S4096x2048_S4096x2048x1_0_1 : S4096x2048.BroadcastsInDim S4096x2048x1 (![0, 1] : Fin 2 → Fin S4096x2048x1.rank)
  concatenates_S4096x2048x1_S4096x2048x1_S4096x2048x2_d2 : Shape.Concatenates [S4096x2048x1, S4096x2048x1] S4096x2048x2 2
  shapeCasts_S4096x2048x2_S4096x4096 : S4096x2048x2.ShapeCasts S4096x4096
  bcast_S4096x32_S4096x32x128_0_1 : S4096x32.BroadcastsInDim S4096x32x128 (![0, 1] : Fin 2 → Fin S4096x32x128.rank)
  shapeCasts_S4096x32x128_S4096x4096 : S4096x32x128.ShapeCasts S4096x4096
  transposes_S4096x4096_S4096x4096_1_0 : S4096x4096.Transposes [1, 0] S4096x4096
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  broadcasts_S1x512_S1024x512 : S1x512.Broadcasts S1024x512
  shapeCasts_S8192x4096_S4x2048x4096 : S8192x4096.ShapeCasts S4x2048x4096
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .i32 = 32 ∨ (Rect.block (s := S8192x4096) S1024x512.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S4096x4096.size a
  hwx0_1 : ∀ i : grid0.Coords, EltTy.bits .bf16 = 32 ∨ (Rect.block (s := S4096x4096) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .f32 = 32 ∨ (Rect.block (s := S1x4096) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x4096.size a
  hwx0_4 : ∀ i : grid0.Coords, EltTy.bits .f32 = 32 ∨ (Rect.block (s := S1x4096) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S8192x4096.size a
  hwx0_5 : ∀ i : grid0.Coords, EltTy.bits .f32 = 32 ∨ (Rect.block (s := S8192x4096) S1024x512.size (cc0_transform_5 i) (hinb0_5 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1024x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x2048 : Shape := ⟨2, ![4096, 2048]⟩
abbrev S1x4096 : Shape := ⟨2, ![1, 4096]⟩
abbrev S4096x32 : Shape := ⟨2, ![4096, 32]⟩
abbrev S8192x4096 : Shape := ⟨2, ![8192, 4096]⟩
abbrev S_ : Shape := ⟨0, ![]⟩
abbrev S4096x2048x1 : Shape := ⟨3, ![4096, 2048, 1]⟩
abbrev S4096x2048x2 : Shape := ⟨3, ![4096, 2048, 2]⟩
abbrev S4096x4096 : Shape := ⟨2, ![4096, 4096]⟩
abbrev S4096x32x128 : Shape := ⟨3, ![4096, 32, 128]⟩

abbrev nBuf : Space → Nat
  | .hbm => 37
  | .vmem => 0
  | .smem => 0
  | _ => 0

abbrev bufTy : (tb : Table) → Fin (tcTables nBuf tb) → BufTy
  | .hbm, ⟨0, _⟩ => ⟨S4x2048x4096, .i32⟩
  | .hbm, ⟨1, _⟩ => ⟨S4096x2048, .i32⟩
  | .hbm, ⟨2, _⟩ => ⟨S1x4096, .f32⟩
  | .hbm, ⟨3, _⟩ => ⟨S1x4096, .f32⟩
  | .hbm, ⟨4, _⟩ => ⟨S1x4096, .f32⟩
  | .hbm, ⟨5, _⟩ => ⟨S4096x32, .i32⟩
  | .hbm, ⟨6, _⟩ => ⟨S4096x32, .i32⟩
  | .hbm, ⟨7, _⟩ => ⟨S8192x4096, .i32⟩
  | .hbm, ⟨8, _⟩ => ⟨S8192x4096, .f32⟩
  | .hbm, ⟨9, _⟩ => ⟨S_, .i32⟩
  | .hbm, ⟨10, _⟩ => ⟨S4096x2048, .i32⟩
  | .hbm, ⟨11, _⟩ => ⟨S4096x2048, .i32⟩
  | .hbm, ⟨12, _⟩ => ⟨S_, .i32⟩
  | .hbm, ⟨13, _⟩ => ⟨S4096x2048, .i32⟩
  | .hbm, ⟨14, _⟩ => ⟨S4096x2048, .i32⟩
  | .hbm, ⟨15, _⟩ => ⟨S_, .i32⟩
  | .hbm, ⟨16, _⟩ => ⟨S4096x2048, .i32⟩
  | .hbm, ⟨17, _⟩ => ⟨S4096x2048, .i32⟩
  | .hbm, ⟨18, _⟩ => ⟨S4096x2048x1, .i32⟩
  | .hbm, ⟨19, _⟩ => ⟨S4096x2048x1, .i32⟩
  | .hbm, ⟨20, _⟩ => ⟨S4096x2048x2, .i32⟩
  | .hbm, ⟨21, _⟩ => ⟨S4096x4096, .i32⟩
  | .hbm, ⟨22, _⟩ => ⟨S4096x32x128, .i32⟩
  | .hbm, ⟨23, _⟩ => ⟨S4096x4096, .i32⟩
  | .hbm, ⟨24, _⟩ => ⟨S4096x32x128, .i32⟩
  | .hbm, ⟨25, _⟩ => ⟨S4096x4096, .i32⟩
  | .hbm, ⟨26, _⟩ => ⟨S4096x4096, .i32⟩
  | .hbm, ⟨27, _⟩ => ⟨S4096x4096, .i32⟩
  | .hbm, ⟨28, _⟩ => ⟨S4096x4096, .f32⟩
  | .hbm, ⟨29, _⟩ => ⟨S8192x4096, .f32⟩
  | .hbm, ⟨30, _⟩ => ⟨S8192x4096, .f32⟩
  | .hbm, ⟨31, _⟩ => ⟨S8192x4096, .f32⟩
  | .hbm, ⟨32, _⟩ => ⟨S8192x4096, .f32⟩
  | .hbm, ⟨33, _⟩ => ⟨S8192x4096, .f32⟩
  | .hbm, ⟨34, _⟩ => ⟨S8192x4096, .f32⟩
  | .hbm, ⟨35, _⟩ => ⟨S8192x4096, .f32⟩
  | .hbm, ⟨36, _⟩ => ⟨S4x2048x4096, .f32⟩
  | _, _ => ⟨S4x2048x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]

class Facts₀ : Prop where
  shapeCasts_S4x2048x4096_S8192x4096 : S4x2048x4096.ShapeCasts S8192x4096
  bcast_S_S4096x2048 : S_.BroadcastsInDim S4096x2048 (![] : Fin 0 → Fin S4096x2048.rank)
  bcast_S4096x2048_S4096x2048x1_0_1 : S4096x2048.BroadcastsInDim S4096x2048x1 (![0, 1] : Fin 2 → Fin S4096x2048x1.rank)
  concatenates_S4096x2048x1_S4096x2048x1_S4096x2048x2_d2 : Shape.Concatenates [S4096x2048x1, S4096x2048x1] S4096x2048x2 2
  shapeCasts_S4096x2048x2_S4096x4096 : S4096x2048x2.ShapeCasts S4096x4096
  bcast_S4096x32_S4096x32x128_0_1 : S4096x32.BroadcastsInDim S4096x32x128 (![0, 1] : Fin 2 → Fin S4096x32x128.rank)
  shapeCasts_S4096x32x128_S4096x4096 : S4096x32x128.ShapeCasts S4096x4096
  bcast_S1x4096_S8192x4096_0_1 : S1x4096.BroadcastsInDim S8192x4096 (![0, 1] : Fin 2 → Fin S8192x4096.rank)
  shapeCasts_S8192x4096_S4x2048x4096 : S8192x4096.ShapeCasts S4x2048x4096
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Pieces.lean ====
/-
  What one grid point of the idealized kernel leaves behind, as values.
  The accumulator block is carried from point to point. At the first point of a run of eight it is reset to the
  zero block and the product of the point's two input blocks is added; at every later point the product is added to
  what the point before left; at the eighth point the output block is then written as
  `acc * a + b + bias` of the finished accumulator and the three row blocks. Each statement below reads the stores
  a case of the body makes back as the body's arithmetic applied to the blocks the point was given.
-/
import proofs.«412666_j81913616270134_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- Every store and load of the body starts at the origin of its buffer. -/
theorem hz : (![0, 0] : Fin 2 → Nat) = fun _ => 0 := funext fun a => by fin_cases a <;> rfl

/-- First point of a run: the accumulator is reset to the zero block, read back, and the blocks' product added. -/
theorem acc_first (c : Dev nD) (i : grid0.Coords) (arg3 : Memref sig .tc .vmem S1024x512 .i32) (harg3 : arg3.IsWhole) (arg4 : Memref sig .tc .vmem S512x512 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : cond0_0 i) (hc1 : ¬cond0_1 i) (x0 : Vec F S1024x512 .i32) (x1 : Vec F S512x512 .bf16) (x2 : Vec F S1x512 .f32) (x3 : Vec F S1x512 .f32) (x4 : Vec F S1x512 .f32) :
    sout0_A_0 c i arg3 harg3 arg4 harg4 arg5 harg5 arg6 harg6 arg7 harg7 arg8 harg8 arg9 harg9 hc0 hc1 x0 x1 x2 x3 x4 = k0_pay2 x0 (k0_pay1 (F := F)) x1 := by
  unfold sout0_A_0
  rw [View.read_writes_eq_canon _ _ _ (scover0_A_0 c i arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S1024x512) hz, View.readCov_unit_zero (S := S1024x512) _ hz]
  simp only [View.readAt_eq_ld, harg3.read_unread, harg4.read_unread, View.ld_unit_zero (S := S1024x512) hz,
    View.ld_unit_zero (S := S512x512) hz]

/-- A middle point of a run: the blocks' product is added to what the point before left (`xs0`). -/
theorem acc_middle (c : Dev nD) (i : grid0.Coords) (arg3 : Memref sig .tc .vmem S1024x512 .i32) (harg3 : arg3.IsWhole) (arg4 : Memref sig .tc .vmem S512x512 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : ¬cond0_0 i) (hc1 : ¬cond0_1 i) (x0 : Vec F S1024x512 .i32) (x1 : Vec F S512x512 .bf16) (x2 : Vec F S1x512 .f32) (x3 : Vec F S1x512 .f32) (x4 : Vec F S1x512 .f32) (xs0 : Vec F S1024x512 .f32) :
    sout0_B_0 c i arg3 harg3 arg4 harg4 arg5 harg5 arg6 harg6 arg7 harg7 arg8 harg8 arg9 harg9 hc0 hc1 x0 x1 x2 x3 x4 xs0 = k0_pay2 x0 xs0 x1 := by
  unfold sout0_B_0
  rw [View.read_writes_eq_canon _ _ _ (scover0_B_0 c i arg3 harg3 arg4 harg4 arg5 harg5 arg6 harg6 arg7 harg7 arg8 harg8 arg9 harg9 hc0 hc1 x0 x1 x2 x3 x4 xs0)]
  unfold kernelRun0_B
  dsimp only
  sl_unfold_words
  rw [View.canon_unit_zero hz]
  simp only [View.readAt_eq_ld, harg3.read_unread, harg4.read_unread, harg9.read_unread,
    View.ld_unit_zero (S := S1024x512) hz, View.ld_unit_zero (S := S512x512) hz]

/-- Last point of a run: the accumulator again takes the blocks' product on top of what the point before left. -/
theorem acc_last (c : Dev nD) (i : grid0.Coords) (arg3 : Memref sig .tc .vmem S1024x512 .i32) (harg3 : arg3.IsWhole) (arg4 : Memref sig .tc .vmem S512x512 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : ¬cond0_0 i) (hc1 : cond0_1 i) (x0 : Vec F S1024x512 .i32) (x1 : Vec F S512x512 .bf16) (x2 : Vec F S1x512 .f32) (x3 : Vec F S1x512 .f32) (x4 : Vec F S1x512 .f32) (xs0 : Vec F S1024x512 .f32) :
    sout0_C_0 c i arg3 harg3 arg4 harg4 arg5 harg5 arg6 harg6 arg7 harg7 arg8 harg8 arg9 harg9 hc0 hc1 x0 x1 x2 x3 x4 xs0 = k0_pay2 x0 xs0 x1 := by
  unfold sout0_C_0
  rw [View.read_writes_eq_canon _ _ _ (scover0_C_0 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero hz]
  simp only [View.readAt_eq_ld, harg3.read_unread, harg4.read_unread, harg9.read_unread,
    View.ld_unit_zero (S := S1024x512) hz, View.ld_unit_zero (S := S512x512) hz]

/-- Last point of a run: the output block is the affine epilogue of the accumulator just finished. -/
theorem out_last (c : Dev nD) (i : grid0.Coords) (arg3 : Memref sig .tc .vmem S1024x512 .i32) (harg3 : arg3.IsWhole) (arg4 : Memref sig .tc .vmem S512x512 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (hc0 : ¬cond0_0 i) (hc1 : cond0_1 i) (x0 : Vec F S1024x512 .i32) (x1 : Vec F S512x512 .bf16) (x2 : Vec F S1x512 .f32) (x3 : Vec F S1x512 .f32) (x4 : Vec F S1x512 .f32) (xs0 : Vec F S1024x512 .f32) :
    out0_C_5 c i arg3 harg3 arg4 harg4 arg5 harg5 arg6 harg6 arg7 harg7 arg8 harg8 arg9 harg9 hc0 hc1 x0 x1 x2 x3 x4 xs0 = k0_pay3 (k0_pay2 x0 xs0 x1) x2 x3 x4 := by
  unfold out0_C_5
  rw [View.read_writes_eq_canon _ _ _ (cover0_C_5 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero hz]
  simp only [View.readAt_eq_ld, harg3.read_unread, harg4.read_unread, harg5.read_unread, harg6.read_unread,
    harg7.read_unread, harg9.read_unread, View.readCov_unit_zero (S := S1024x512) _ hz,
    View.ld_unit_zero (S := S1024x512) hz, View.ld_unit_zero (S := S512x512) hz, View.ld_unit_zero (S := S1x512) hz]

end Cert.KernelIdeal.Pieces

end
-- ==== Proof.Payload.lean ====
/-
  The body's arithmetic over the extended reals, one entry at a time.
  Entry (p, q) of the accumulator update is the old entry plus the dot product of row p of the integer block, each
  integer read as the real number it is, with column q of the weight block. Entry (p, q) of the output block is
  `acc * a + b + bias` with the three rows read at column q. The reset block is zero everywhere.
-/
import proofs.«412666_j81913616270134_1_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem

namespace Cert.KernelIdeal.Payload

open Cert.KernelIdeal Cert.KernelIdeal.Gen Idealize.ShloMosaic.ValueIdx

/-- The left operand of the block product is read at (row of the result, contraction position): axis 0. -/
theorem lhs_axis0 (i : S1024x512.Idx) (r : dot_S1024x512_S512x512_S1024x512_1_0_0_1_n_n.contr.Idx) :
    (dot_S1024x512_S512x512_S1024x512_1_0_0_1_n_n.lhsIdx i r 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
/-- Axis 1 of the left operand is the contraction position. -/
theorem lhs_axis1 (i : S1024x512.Idx) (r : dot_S1024x512_S512x512_S1024x512_1_0_0_1_n_n.contr.Idx) :
    (dot_S1024x512_S512x512_S1024x512_1_0_0_1_n_n.lhsIdx i r 1).val = (r ⟨0, by decide⟩).val :=
  dot_S1024x512_S512x512_S1024x512_1_0_0_1_n_n.lhsIdx_val_of_single rfl i r
/-- The right operand is read at (contraction position, column of the result): axis 0. -/
theorem rhs_axis0 (i : S1024x512.Idx) (r : dot_S1024x512_S512x512_S1024x512_1_0_0_1_n_n.contr.Idx) :
    (dot_S1024x512_S512x512_S1024x512_1_0_0_1_n_n.rhsIdx i r 0).val = (r ⟨0, by decide⟩).val :=
  dot_S1024x512_S512x512_S1024x512_1_0_0_1_n_n.rhsIdx_val_of_single rfl i r
/-- Axis 1 of the right operand is the result's column. -/
theorem rhs_axis1 (i : S1024x512.Idx) (r : dot_S1024x512_S512x512_S1024x512_1_0_0_1_n_n.contr.Idx) :
    (dot_S1024x512_S512x512_S1024x512_1_0_0_1_n_n.rhsIdx i r 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- The block product into a zero accumulator, at entry (p, q): the dot product of row p with column q. -/
theorem blockProduct_at (x : FVec Ideal S1024x512 .bf16) (w : FVec Ideal S512x512 .bf16) (p : Fin 1024) (q : Fin 512) :
    matmul dot_S1024x512_S512x512_S1024x512_1_0_0_1_n_n none x w (constant S1024x512 .f32 0x00000000#32) (ix2 p q)
      = ∑ kk : Fin 512, x (ix2 p kk) * w (ix2 kk q) := by
  simp only [matmul]
  rw [Ideal.matmul_constant_zero_apply, ← Equiv.sum_comp (contrEquiv1 dot_S1024x512_S512x512_S1024x512_1_0_0_1_n_n 512 rfl rfl).symm]
  refine Finset.sum_congr rfl fun k _ => ?_
  have hk := contrEquiv1_symm_val dot_S1024x512_S512x512_S1024x512_1_0_0_1_n_n 512 rfl rfl k
  have el : dot_S1024x512_S512x512_S1024x512_1_0_0_1_n_n.lhsIdx (ix2 p q) ((contrEquiv1 dot_S1024x512_S512x512_S1024x512_1_0_0_1_n_n 512 rfl rfl).symm k) = ix2 p k := funext fun a => Fin.ext (by
    match a with
    | ⟨0, _⟩ => exact lhs_axis0 _ _
    | ⟨1, _⟩ => exact (lhs_axis1 _ _).trans hk)
  have er : dot_S1024x512_S512x512_S1024x512_1_0_0_1_n_n.rhsIdx (ix2 p q) ((contrEquiv1 dot_S1024x512_S512x512_S1024x512_1_0_0_1_n_n 512 rfl rfl).symm k) = ix2 k q := funext fun a => Fin.ext (by
    match a with
    | ⟨0, _⟩ => exact (rhs_axis0 _ _).trans hk
    | ⟨1, _⟩ => exact rhs_axis1 _ _)
  rw [el, er]

/-- The reset block is zero at every entry. -/
theorem reset_at (y : S1024x512.Idx) : k0_pay1 (F := Ideal) y = 0 := by
  unfold k0_pay1
  rw [shapeCast_self]
  exact Ideal.ofBits_zero_f32

/-- The accumulator update at entry (p, q): the old entry plus the dot product of the integer block's row p, its
    integers read as reals, with the weight block's column q. -/
theorem update_at (x0 : Vec Ideal S1024x512 .i32) (acc : Vec Ideal S1024x512 .f32) (x1 : Vec Ideal S512x512 .bf16)
    (p : Fin 1024) (q : Fin 512) :
    k0_pay2 (F := Ideal) x0 acc x1 (ix2 p q)
      = acc (ix2 p q) + ∑ kk : Fin 512, (((BitVec.toInt (x0 (ix2 p kk)) : ℝ) : EReal)) * x1 (ix2 kk q) := by
  unfold k0_pay2
  simp only [shapeCast_self]
  rw [addf_apply, blockProduct_at]
  rfl

/-- A row block broadcast down the 1024 rows is read at its column. -/
theorem row_at (v : Vec Ideal S1x512 .f32) (p : Fin 1024) (q : Fin 512) :
    broadcastTo S1024x512 v broadcasts_S1x512_S1024x512 (ix2 p q) = v (ix2 (0 : Fin 1) q) :=
  broadcastTo_apply v broadcasts_S1x512_S1024x512 (ix2 p q) (ix2 (0 : Fin 1) q) (fun a => match a with
    | ⟨0, _⟩ => by show 0 = if (1 : Nat) = 1 then 0 else _; rw [if_pos rfl]
    | ⟨1, _⟩ => by show q.val = if (512 : Nat) = 1 then 0 else q.val; rw [if_neg (by decide)])

/-- The output block at entry (p, q): `acc * a + b + bias`, the three rows read at column q. -/
theorem epilogue_at (acc : Vec Ideal S1024x512 .f32) (a b bias : Vec Ideal S1x512 .f32) (p : Fin 1024) (q : Fin 512) :
    k0_pay3 (F := Ideal) acc a b bias (ix2 p q)
      = acc (ix2 p q) * a (ix2 (0 : Fin 1) q) + b (ix2 (0 : Fin 1) q) + bias (ix2 (0 : Fin 1) q) := by
  unfold k0_pay3
  rw [addf_apply, addf_apply, mulf_apply, row_at, row_at, row_at]

end Cert.KernelIdeal.Payload

end
-- ==== Proof.BlockSum.lean ====
/-
  A sum of 4096 terms regrouped as eight consecutive runs of 512 terms: the one law of addition by which the two
  programs differ. It holds in every commutative additive monoid, so over the extended reals no finiteness is asked.
-/
import Mathlib.Algebra.BigOperators.Fin
import Mathlib.Data.Fintype.BigOperators
import Mathlib.Logic.Equiv.Fin.Basic

namespace Cert.BlockSum

open Finset

variable {M : Type*} [AddCommMonoid M]

/-- Position `512 * s + kk` of run `s`, as an index below 4096. -/
def pos (s : Fin 8) (kk : Fin 512) : Fin 4096 := ⟨512 * s.val + kk.val, by have := s.isLt; have := kk.isLt; omega⟩

/-- The sum of `f` over run `s` (positions `512 s` to `512 s + 511`); zero past the eighth run, so that it is a
    function of every natural number. -/
def run (f : Fin 4096 → M) (s : ℕ) : M :=
  if h : s < 8 then ∑ kk : Fin 512, f (pos ⟨s, h⟩ kk) else 0

theorem run_of_lt (f : Fin 4096 → M) (s : ℕ) (h : s < 8) : run f s = ∑ kk : Fin 512, f (pos ⟨s, h⟩ kk) := dif_pos h

/-- The whole sum is the sum of the eight runs. -/
theorem sum_eq_runs (f : Fin 4096 → M) : ∑ k : Fin 4096, f k = ∑ s ∈ range 8, run f s := by
  rw [Finset.sum_range (fun s => run f s)]
  have e : ∑ k : Fin 4096, f k = ∑ p : Fin 8 × Fin 512, f (pos p.1 p.2) := by
    refine (Fintype.sum_equiv (finProdFinEquiv (m := 8) (n := 512)) (fun p => f (pos p.1 p.2)) f (fun p => ?_)).symm
    refine congrArg f (Fin.ext ?_)
    show 512 * p.1.val + p.2.val = p.2.val + 512 * p.1.val
    omega
  rw [e, Fintype.sum_prod_type]
  exact Finset.sum_congr rfl fun s _ => (run_of_lt f s.val s.isLt).symm

end Cert.BlockSum
-- ==== Proof.Blocks.lean ====
/-
  Where a grid point's blocks sit in their arrays.
  The 512 points are numbered row-major over (i, j, k) with k fastest: point t has i = t / 64, j = t / 8 % 8,
  k = t % 8. The integer block of point t is rows 1024 i .. of columns 512 k ..; the weight block is rows 512 k .. of
  columns 512 j ..; the three row blocks and the output block are at column block j (and row block i for the output).
-/
import proofs.«412666_j81913616270134_1_alg».proof.Proof.Gen.KernelIdeal.Frame
import proofs.«412666_j81913616270134_1_alg».proof.Proof.BlockSum
import Idealize.ShloMosaic.Lib.Pipeline.Value
import Idealize.ShloMosaic.Lib.ValueIdx

noncomputable section

open Idealize.ShloMosaic Idealize.ShloMosaic.TcCoe Idealize.SL.Sem

namespace Cert.KernelIdeal.Blocks

open Cert.KernelIdeal Cert.KernelIdeal.Gen Idealize.ShloMosaic.ValueIdx Cert.BlockSum

variable {F : FTy → Type} [FloatOps F]
variable (m : (ℓ : Loc nD τ sig) → Buf (Elt F) ℓ)

theorem lt512 {n : ℕ} (h : n < cfg0.N) : n < 512 := lt_of_lt_of_eq h N_0

/-- Row `1024 * (n / 64) + p` of the big arrays: row p of row block i of point n. -/
def rowOf (n : ℕ) (hn : n < 512) (p : Fin 1024) : Fin 8192 := ⟨1024 * (n / 64) + p.val, by have := p.isLt; omega⟩
/-- Column `512 * (n / 8 % 8) + q`: column q of column block j of point n. -/
def colOf (n : ℕ) (hn : n < 512) (q : Fin 512) : Fin 4096 := ⟨512 * (n / 8 % 8) + q.val, by have := q.isLt; omega⟩
/-- The position of point n along the contraction axis: run `n % 8`. -/
def runOf (n : ℕ) : Fin 8 := ⟨n % 8, Nat.mod_lt _ (by decide)⟩

/-- The printed index maps over the grid: which block of its array each window holds at point t. -/
theorem index_facts : ∀ t : Fin cfg0.N,
    win0_0.index t (0 : Fin 2) = t.val / 64 ∧ win0_0.index t (1 : Fin 2) = t.val % 8
    ∧ win0_1.index t (0 : Fin 2) = t.val % 8 ∧ win0_1.index t (1 : Fin 2) = t.val / 8 % 8
    ∧ win0_2.index t (0 : Fin 2) = 0 ∧ win0_2.index t (1 : Fin 2) = t.val / 8 % 8
    ∧ win0_3.index t (0 : Fin 2) = 0 ∧ win0_3.index t (1 : Fin 2) = t.val / 8 % 8
    ∧ win0_4.index t (0 : Fin 2) = 0 ∧ win0_4.index t (1 : Fin 2) = t.val / 8 % 8
    ∧ win0_5.index t (0 : Fin 2) = t.val / 64 ∧ win0_5.index t (1 : Fin 2) = t.val / 8 % 8 :=
  (by decide +kernel : ∀ t : Fin grid0.N, _)

/-- The integer block of point t at (p, kk) is the integer array at (row p of row block i, position kk of run k). -/
theorem intBlock_at (c : Dev nD) (t : Fin cfg0.N) (p : Fin 1024) (kk : Fin 512) :
    (iblk m c 0 t : Vec F S1024x512 .i32) (ix2 p kk)
      = (V m c main_v0 : S8192x4096.Idx → Elt F .i32) (ix2 (rowOf t.val (lt512 t.isLt) p) (pos (runOf t.val) kk)) := by
  unfold iblk
  rw [View.read_apply]
  show V m c main_v0 _ = V m c main_v0 _
  refine congrArg (V m c main_v0) (funext fun a => Fin.ext ?_)
  obtain ⟨e0, e1, -⟩ := index_facts t
  match a with
  | ⟨0, _⟩ => show win0_0.index t (0 : Fin 2) * 1024 + 1 * p.val = 1024 * (t.val / 64) + p.val; omega
  | ⟨1, _⟩ => show win0_0.index t (1 : Fin 2) * 512 + 1 * kk.val = 512 * (t.val % 8) + kk.val; omega

/-- The weight block of point t at (kk, q) is the weight array at (position kk of run k, column q of column block j). -/
theorem weightBlock_at (c : Dev nD) (t : Fin cfg0.N) (kk : Fin 512) (q : Fin 512) :
    (iblk m c 1 t : Vec F S512x512 .bf16) (ix2 kk q)
      = (V m c main_v18 : S4096x4096.Idx → Elt F .bf16) (ix2 (pos (runOf t.val) kk) (colOf t.val (lt512 t.isLt) q)) := by
  unfold iblk
  rw [View.read_apply]
  show V m c main_v18 _ = V m c main_v18 _
  refine congrArg (V m c main_v18) (funext fun a => Fin.ext ?_)
  obtain ⟨-, -, e0, e1, -⟩ := index_facts t
  match a with
  | ⟨0, _⟩ => show win0_1.index t (0 : Fin 2) * 512 + 1 * kk.val = 512 * (t.val % 8) + kk.val; omega
  | ⟨1, _⟩ => show win0_1.index t (1 : Fin 2) * 512 + 1 * q.val = 512 * (t.val / 8 % 8) + q.val; omega

/-- The scale row block of point t at column q is the scale row at column q of column block j. -/
theorem scaleBlock_at (c : Dev nD) (t : Fin cfg0.N) (q : Fin 512) :
    (iblk m c 2 t : Vec F S1x512 .f32) (ix2 (0 : Fin 1) q)
      = (V m c main_arg3 : S1x4096.Idx → Elt F .f32) (ix2 (0 : Fin 1) (colOf t.val (lt512 t.isLt) q)) := by
  unfold iblk
  rw [View.read_apply]
  show V m c main_arg3 _ = V m c main_arg3 _
  refine congrArg (V m c main_arg3) (funext fun a => Fin.ext ?_)
  obtain ⟨-, -, -, -, e0, e1, -⟩ := index_facts t
  match a with
  | ⟨0, _⟩ => show win0_2.index t (0 : Fin 2) * 1 + 1 * 0 = 0; omega
  | ⟨1, _⟩ => show win0_2.index t (1 : Fin 2) * 512 + 1 * q.val = 512 * (t.val / 8 % 8) + q.val; omega

/-- The shift row block of point t at column q. -/
theorem shiftBlock_at (c : Dev nD) (t : Fin cfg0.N) (q : Fin 512) :
    (iblk m c 3 t : Vec F S1x512 .f32) (ix2 (0 : Fin 1) q)
      = (V m c main_arg4 : S1x4096.Idx → Elt F .f32) (ix2 (0 : Fin 1) (colOf t.val (lt512 t.isLt) q)) := by
  unfold iblk
  rw [View.read_apply]
  show V m c main_arg4 _ = V m c main_arg4 _
  refine congrArg (V m c main_arg4) (funext fun a => Fin.ext ?_)
  obtain ⟨-, -, -, -, -, -, e0, e1, -⟩ := index_facts t
  match a with
  | ⟨0, _⟩ => show win0_3.index t (0 : Fin 2) * 1 + 1 * 0 = 0; omega
  | ⟨1, _⟩ => show win0_3.index t (1 : Fin 2) * 512 + 1 * q.val = 512 * (t.val / 8 % 8) + q.val; omega

/-- The bias row block of point t at column q. -/
theorem biasBlock_at (c : Dev nD) (t : Fin cfg0.N) (q : Fin 512) :
    (iblk m c 4 t : Vec F S1x512 .f32) (ix2 (0 : Fin 1) q)
      = (V m c main_arg2 : S1x4096.Idx → Elt F .f32) (ix2 (0 : Fin 1) (colOf t.val (lt512 t.isLt) q)) := by
  unfold iblk
  rw [View.read_apply]
  show V m c main_arg2 _ = V m c main_arg2 _
  refine congrArg (V m c main_arg2) (funext fun a => Fin.ext ?_)
  obtain ⟨-, -, -, -, -, -, -, -, e0, e1, -⟩ := index_facts t
  match a with
  | ⟨0, _⟩ => show win0_4.index t (0 : Fin 2) * 1 + 1 * 0 = 0; omega
  | ⟨1, _⟩ => show win0_4.index t (1 : Fin 2) * 512 + 1 * q.val = 512 * (t.val / 8 % 8) + q.val; omega

end Cert.KernelIdeal.Blocks

end
-- ==== Proof.Accum.lean ====
/-
  The accumulator along a run of eight grid points is a partial dot product.
  Fix the row block i and column block j of a run. After the point at position k of the run, entry (p, q) of the
  accumulator is the sum, over the runs 0..k of the contraction axis, of the products x[r, .] * w[., o] on that run,
  where r = 1024 i + p, o = 512 j + q, x is the integer array read as reals and w the weight array. The proof is an
  induction on the point: a first point starts from the zero block, every other point adds its run to what the
  point before left, and the point before lies in the same run (same i and j, position k - 1).
-/
import proofs.«412666_j81913616270134_1_alg».proof.Proof.Pieces
import proofs.«412666_j81913616270134_1_alg».proof.Proof.Payload
import proofs.«412666_j81913616270134_1_alg».proof.Proof.Blocks

noncomputable section

open Idealize.ShloMosaic Idealize.ShloMosaic.TcCoe Idealize.SL.Sem

namespace Cert.KernelIdeal.Accum

open Cert.KernelIdeal Cert.KernelIdeal.Gen Idealize.ShloMosaic.ValueIdx Cert.BlockSum Cert.KernelIdeal.Blocks

/-! ## What a point leaves, by its position in the run (any float instance) -/

section AnyInstance
variable {F : FTy → Type} [FloatOps F]
variable (m : (ℓ : Loc nD τ sig) → Buf (Elt F) ℓ)

/-- First point of a run: the update of the zero block by the point's blocks. -/
theorem first_at (c : Dev nD) (t : Fin cfg0.N) (h0 : t.val % 8 = 0) (h1 : ¬t.val % 8 = 7) :
    (outsAt0 m c t.val t.isLt).2 = k0_pay2 (iblk m c 0 t) (k0_pay1 (F := F)) (iblk m c 1 t) := by
  rw [outsAt0_A m c t h0 h1]
  dsimp only
  exact Pieces.acc_first c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t)

/-- A middle point: the update of what the point before left. -/
theorem middle_at (c : Dev nD) (t : Fin cfg0.N) (h0 : ¬t.val % 8 = 0) (h1 : ¬t.val % 8 = 7) :
    (outsAt0 m c t.val t.isLt).2 = k0_pay2 (iblk m c 0 t) (outsAt0 m c (t.val - 1) (Nat.lt_of_le_of_lt (Nat.sub_le _ _) t.isLt)).2 (iblk m c 1 t) := by
  rw [outsAt0_B m c t h0 h1]
  dsimp only
  exact Pieces.acc_middle c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2

/-- The last point: the accumulator is again the update of what the point before left, -/
theorem last_at (c : Dev nD) (t : Fin cfg0.N) (h0 : ¬t.val % 8 = 0) (h1 : t.val % 8 = 7) :
    (outsAt0 m c t.val t.isLt).2 = k0_pay2 (iblk m c 0 t) (outsAt0 m c (t.val - 1) (Nat.lt_of_le_of_lt (Nat.sub_le _ _) t.isLt)).2 (iblk m c 1 t) := by
  rw [outsAt0_C m c t h0 h1]
  dsimp only
  exact Pieces.acc_last c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2

/-- and the output block is the epilogue of that finished accumulator. -/
theorem out_at (c : Dev nD) (t : Fin cfg0.N) (h0 : ¬t.val % 8 = 0) (h1 : t.val % 8 = 7) :
    (outsAt0 m c t.val t.isLt).1 = k0_pay3 (outsAt0 m c t.val t.isLt).2 (iblk m c 2 t) (iblk m c 3 t) (iblk m c 4 t) := by
  rw [last_at m c t h0 h1, outsAt0_C m c t h0 h1]
  dsimp only
  exact Pieces.out_last c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2

end AnyInstance

/-! ## The invariant, over the extended reals -/

variable (m : (ℓ : Loc nD τ sig) → Buf (Elt Ideal) ℓ)

/-- The integer activations as the region finds them (the input reshaped to 8192 rows). -/
abbrev X (c : Dev nD) : S8192x4096.Idx → BitVec 32 := V m c main_v0
/-- The weights as the region finds them (the dequantized integers as reals, transposed: contraction axis first). -/
abbrev W (c : Dev nD) : S4096x4096.Idx → EReal := V m c main_v18

/-- One product of the dot product of activation row `r` with weight column `o`. -/
def term (c : Dev nD) (r : Fin 8192) (o : Fin 4096) (k : Fin 4096) : EReal :=
  ((BitVec.toInt (X m c (ix2 r k)) : ℝ) : EReal) * W m c (ix2 k o)

/-- The partial dot products after point `n`: runs `0 .. n % 8` of the contraction axis. -/
def partialDot (c : Dev nD) (n : ℕ) (hn : n < 512) : Vec Ideal S1024x512 .f32 := fun y =>
  ∑ s ∈ Finset.range (n % 8 + 1), run (term m c (rowOf n hn (y 0)) (colOf n hn (y 1))) s

/-- One update at point t adds run `t % 8` of the dot product at the point's row and column. -/
theorem step_at (c : Dev nD) (t : Fin cfg0.N) (acc : Vec Ideal S1024x512 .f32) (p : Fin 1024) (q : Fin 512) :
    k0_pay2 (F := Ideal) (iblk m c 0 t) acc (iblk m c 1 t) (ix2 p q)
      = acc (ix2 p q) + run (term m c (rowOf t.val (lt512 t.isLt) p) (colOf t.val (lt512 t.isLt) q)) (t.val % 8) := by
  refine (Payload.update_at (iblk m c 0 t) acc (iblk m c 1 t) p q).trans ?_
  refine congrArg (acc (ix2 p q) + ·) ?_
  rw [run_of_lt _ _ (Nat.mod_lt _ (by decide))]
  refine Finset.sum_congr rfl fun kk _ => ?_
  rw [intBlock_at m c t p kk, weightBlock_at m c t kk q]
  rfl

/-- THE INVARIANT: after every point the accumulator holds the partial dot products of its run. -/
theorem acc_eq (c : Dev nD) : ∀ (n : ℕ) (h : n < cfg0.N), (outsAt0 m c n h).2 = partialDot m c n (lt512 h)
  | 0, h => by
    refine (first_at m c ⟨0, h⟩ rfl (by show ¬(0 % 8 = 7); decide)).trans (funext fun y => ?_)
    obtain ⟨p, q, rfl⟩ : ∃ (p : Fin 1024) (q : Fin 512), y = ix2 p q := ⟨y 0, y 1, eq_ix2 y⟩
    refine (step_at m c ⟨0, h⟩ _ p q).trans ?_
    rw [Payload.reset_at, zero_add]
    exact (Finset.sum_range_one _).symm
  | n + 1, h => by
    have hN : n + 1 < 512 := lt512 h
    by_cases h0 : (n + 1) % 8 = 0
    · refine (first_at m c ⟨n + 1, h⟩ h0 (by dsimp only; omega)).trans (funext fun y => ?_)
      obtain ⟨p, q, rfl⟩ : ∃ (p : Fin 1024) (q : Fin 512), y = ix2 p q := ⟨y 0, y 1, eq_ix2 y⟩
      refine (step_at m c ⟨n + 1, h⟩ _ p q).trans ?_
      rw [Payload.reset_at, zero_add]
      show run _ ((n + 1) % 8) = ∑ s ∈ Finset.range ((n + 1) % 8 + 1), run _ s
      rw [h0]
      exact (Finset.sum_range_one _).symm
    · have hprev : (outsAt0 m c (n + 1) h).2
          = k0_pay2 (iblk m c 0 ⟨n + 1, h⟩) (outsAt0 m c n (Nat.lt_of_succ_lt h)).2 (iblk m c 1 ⟨n + 1, h⟩) := by
        by_cases h1 : (n + 1) % 8 = 7
        · exact last_at m c ⟨n + 1, h⟩ h0 h1
        · exact middle_at m c ⟨n + 1, h⟩ h0 h1
      refine hprev.trans (funext fun y => ?_)
      obtain ⟨p, q, rfl⟩ : ∃ (p : Fin 1024) (q : Fin 512), y = ix2 p q := ⟨y 0, y 1, eq_ix2 y⟩
      refine (step_at m c ⟨n + 1, h⟩ _ p q).trans ?_
      rw [acc_eq c n (Nat.lt_of_succ_lt h)]
      have er : rowOf n (lt512 (Nat.lt_of_succ_lt h)) p = rowOf (n + 1) hN p :=
        Fin.ext (by show 1024 * (n / 64) + p.val = 1024 * ((n + 1) / 64) + p.val; omega)
      have ec : colOf n (lt512 (Nat.lt_of_succ_lt h)) q = colOf (n + 1) hN q :=
        Fin.ext (by show 512 * (n / 8 % 8) + q.val = 512 * ((n + 1) / 8 % 8) + q.val; omega)
      have ek : (n + 1) % 8 = n % 8 + 1 := by omega
      show (∑ s ∈ Finset.range (n % 8 + 1), run (term m c (rowOf n _ p) (colOf n _ q)) s)
          + run (term m c (rowOf (n + 1) _ p) (colOf (n + 1) _ q)) ((n + 1) % 8)
        = ∑ s ∈ Finset.range ((n + 1) % 8 + 1), run (term m c (rowOf (n + 1) _ p) (colOf (n + 1) _ q)) s
      rw [er, ec, ek, Finset.sum_range_succ _ (n % 8 + 1)]

/-- At the last point of a run the accumulator holds the whole dot products. -/
theorem acc_full (c : Dev nD) (t : Fin cfg0.N) (h1 : t.val % 8 = 7) (p : Fin 1024) (q : Fin 512) :
    (outsAt0 m c t.val t.isLt).2 (ix2 p q)
      = ∑ k : Fin 4096, term m c (rowOf t.val (lt512 t.isLt) p) (colOf t.val (lt512 t.isLt) q) k := by
  rw [acc_eq m c t.val t.isLt, sum_eq_runs]
  show ∑ s ∈ Finset.range (t.val % 8 + 1), _ = _
  rw [h1]

end Cert.KernelIdeal.Accum

end
-- ==== Proof.Spec.lean ====
/-
  The function both programs compute, over the extended reals: a matrix product of integers followed by a per-column
  affine map. `x` is the 8192 x 4096 integer activation matrix, `wt` the 4096 x 4096 weight matrix with the
  contraction axis FIRST (entry (k, o) multiplies x[r, k] into output column o), and `a`, `b`, `bias` are rows of
  4096 extended reals. Entry (r, o) of the result is `(sum over k of x[r, k] * wt[k, o]) * a[o] + b[o] + bias[o]`, each
  integer read as the real number it is.
-/
import Idealize.ShloMosaic.Lib.ValueIdx
import Mathlib.Data.EReal.Operations
import Mathlib.Algebra.BigOperators.Group.Finset.Basic

noncomputable section

namespace Cert.Spec

open Idealize.ShloMosaic Idealize.ShloMosaic.ValueIdx

/-- An integer word read as the real number it is, in the extended reals. -/
def ofWord (b : BitVec 32) : EReal := ((BitVec.toInt b : ℝ) : EReal)

/-- Entry (r, o) of the matrix product: the dot product of row r of `x` with column o of `wt`. -/
def dot (x : (⟨2, ![8192, 4096]⟩ : Shape).Idx → BitVec 32) (wt : (⟨2, ![4096, 4096]⟩ : Shape).Idx → EReal)
    (r : Fin 8192) (o : Fin 4096) : EReal :=
  ∑ k : Fin 4096, ofWord (x (ix2 r k)) * wt (ix2 k o)

/-- The whole result: the product, scaled by `a`, shifted by `b` and then by `bias`, column by column. -/
def affine (x : (⟨2, ![8192, 4096]⟩ : Shape).Idx → BitVec 32) (wt : (⟨2, ![4096, 4096]⟩ : Shape).Idx → EReal)
    (a b bias : (⟨2, ![1, 4096]⟩ : Shape).Idx → EReal) : (⟨2, ![8192, 4096]⟩ : Shape).Idx → EReal := fun i =>
  dot x wt (i 0) (i 1) * a (ix2 (0 : Fin 1) (i 1)) + b (ix2 (0 : Fin 1) (i 1)) + bias (ix2 (0 : Fin 1) (i 1))

end Cert.Spec

end
-- ==== Proof.KValue.lean ====
/-
  What the idealized kernel's run leaves in its result.
  The output block of (row block i, column block j) is written back once, by the last point of that run, and holds
  the affine epilogue of the finished accumulator: the specification restricted to the block. The 64 blocks tile the
  8192 x 4096 array (the block holding entry (r, o) is the one of r / 1024 and o / 512), so the array ends at the
  specification of the arrays the region was given, and the program's result is that array reshaped to 4 x 2048 x 4096.
-/
import proofs.«412666_j81913616270134_1_alg».proof.Proof.Accum
import proofs.«412666_j81913616270134_1_alg».proof.Proof.Spec
import Idealize.ShloMosaic.Lib.StableHlo.Run

noncomputable section

open Idealize.ShloMosaic Idealize.ShloMosaic.TcCoe Idealize.SL.Sem

namespace Cert.KernelIdeal.KValue

open Cert.KernelIdeal Cert.KernelIdeal.Gen Idealize.ShloMosaic.ValueIdx Cert.BlockSum Cert.KernelIdeal.Blocks
open Cert.KernelIdeal.Accum

variable (m : (ℓ : Loc nD τ sig) → Buf (Elt Ideal) ℓ) (ρ : Dev nD → PrngReg)

/-- The specification at the arrays the region finds: activations, weights, and the three rows. -/
def result (c : Dev nD) : (⟨2, ![8192, 4096]⟩ : Shape).Idx → EReal :=
  Cert.Spec.affine (X m c) (W m c) (V m c main_arg3) (V m c main_arg4) (V m c main_arg2)

/-- WHAT A POINT WRITES BACK: the last point of a run writes its block of the specification. -/
theorem flushed_eq (c : Dev nD) (t : Fin cfg0.N) (hf : (cfg0.win 5).flush t = true) :
    (dats m 0 c).flushed 5 t = ((cfg0.win 5).blk t).view.read (Elt Ideal) (result m c) := by
  have h7 : t.val % 8 = 7 := (flush0_5 t).mp hf
  have h0 : ¬t.val % 8 = 0 := by omega
  show (cfg0.win 5).cut (grid0.coords t) ((dats m 0 c).after 5 t) = _
  rw [after0_5, out_at m c t h0 h7]
  funext y
  obtain ⟨p, q, rfl⟩ : ∃ (p : Fin 1024) (q : Fin 512), y = ix2 p q := ⟨y 0, y 1, eq_ix2 (n0 := 1024) (n1 := 512) y⟩
  refine (Payload.epilogue_at _ (iblk m c 2 t) (iblk m c 3 t) (iblk m c 4 t) p q).trans ?_
  rw [acc_full m c t h7 p q, scaleBlock_at m c t q, shiftBlock_at m c t q, biasBlock_at m c t q, View.read_apply]
  have he : ((cfg0.win 5).blk t).view.emb (ix2 p q) = ix2 (rowOf t.val (lt512 t.isLt) p) (colOf t.val (lt512 t.isLt) q) :=
    funext fun a => Fin.ext (by
      obtain ⟨-, -, -, -, -, -, -, -, -, -, e0, e1⟩ := index_facts t
      match a with
      | ⟨0, _⟩ => show win0_5.index t (0 : Fin 2) * 1024 + 1 * p.val = 1024 * (t.val / 64) + p.val; omega
      | ⟨1, _⟩ => show win0_5.index t (1 : Fin 2) * 512 + 1 * q.val = 512 * (t.val / 8 % 8) + q.val; omega)
  show _ = result m c (((cfg0.win 5).blk t).view.emb (ix2 p q))
  rw [he]
  rfl

/-- An index of the array is in point t's block iff each coordinate is in the block's range on its axis. -/
theorem mem_block (t : Fin cfg0.N) (i : S8192x4096.Idx) :
    i ∈ ((cfg0.win 5).blk t).view.set ↔ ∀ a : Fin 2, win0_5.index t a * S1024x512.size a ≤ (i a).val ∧ (i a).val < win0_5.index t a * S1024x512.size a + S1024x512.size a := by
  show i ∈ ((View.whole main_v19).slice (win0_5.rect t)).set ↔ _
  rw [View.set_slice_whole, Rect.mem_set_unit]
  exact Iff.rfl

/-- THE ARRAY after the run: every entry lies in the block some run's last point writes back. -/
theorem final (c : Dev nD) : (dats m 0 c).arrAt 5 cfg0.N = result m c :=
  (dats m 0 c).arrAt_eq_of_cover 5 (result m c) (flushed_eq m c) fun i => by
    have hi0 : (i 0).val < 8192 := (i 0).isLt
    have hi1 : (i 1).val < 4096 := (i 1).isLt
    have ht : 64 * ((i 0).val / 1024) + 8 * ((i 1).val / 512) + 7 < cfg0.N := lt_of_lt_of_eq (by omega) N_0.symm
    refine ⟨⟨64 * ((i 0).val / 1024) + 8 * ((i 1).val / 512) + 7, ht⟩, (flush0_5 _).mpr (by dsimp only; omega), ?_⟩
    rw [mem_block]
    obtain ⟨-, -, -, -, -, -, -, -, -, -, e0, e1⟩ := index_facts ⟨64 * ((i 0).val / 1024) + 8 * ((i 1).val / 512) + 7, ht⟩
    dsimp only at e0 e1
    intro a
    match a with
    | ⟨0, _⟩ =>
      show win0_5.index ⟨64 * ((i 0).val / 1024) + 8 * ((i 1).val / 512) + 7, ht⟩ (0 : Fin 2) * 1024 ≤ (i 0).val
        ∧ (i 0).val < win0_5.index ⟨64 * ((i 0).val / 1024) + 8 * ((i 1).val / 512) + 7, ht⟩ (0 : Fin 2) * 1024 + 1024
      rw [e0]; omega
    | ⟨1, _⟩ =>
      show win0_5.index ⟨64 * ((i 0).val / 1024) + 8 * ((i 1).val / 512) + 7, ht⟩ (1 : Fin 2) * 512 ≤ (i 1).val
        ∧ (i 1).val < win0_5.index ⟨64 * ((i 0).val / 1024) + 8 * ((i 1).val / 512) + 7, ht⟩ (1 : Fin 2) * 512 + 512
      rw [e1]; omega

/-- The line after the region reshapes the array: the program's result is the specification, reshaped. -/
theorem tail_eq (c : Dev nD) :
    (Pipeline.afterTail₀ cfgs (dats m) 0 (V0 m) [hostOps1] c main_v20 : S4x2048x4096.Idx → EReal)
      = shapeCast S4x2048x4096 (result m c) shapeCasts_S8192x4096_S4x2048x4096 := by
  unfold Pipeline.afterTail₀
  show StableHlo.after hostOps1 _ (Proc.devRef .tc main_v20) = _
  after_results
  rw [(Pipeline.withArrays_arr spec0 launch0.win.arr_inj c _ _ 5).trans (final m c)]
  rfl

/-- THE RUN, READ: the result at the specification reshaped, every argument unchanged. -/
theorem run : θ_run defs (onTc (τ := τ) (main (F := Ideal))) ⟨m, fun _ => 0, ρ⟩ fun r => ∀ c : Dev nD,
      r.2.mem ((c.tc : Thread nD τ).loc main_v20) = shapeCast S4x2048x4096 (result m c) shapeCasts_S8192x4096_S4x2048x4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v20 (Pipeline.mem_restRefs_of main_v20 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 4).trans (((dats m 0 c).arrAt_in 4 rfl _).trans ((A_eq m c 4).trans (V_main_arg2 m c))),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c))),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.KValue

end
-- ==== Proof.RefValue.lean ====
/-
  The reference, before its last reshape, is the affine map of the matrix product.
  Its einsum contracts the second axis of both operands, so against the specification's contraction-first weights
  entry (k, o) is the reference's integer weight at (o, k) read as a real. Everything else is the same three
  pointwise operations in the same order, each row broadcast down the 8192 rows.
-/
import proofs.«412666_j81913616270134_1_alg».proof.Proof.Gen.ReferenceIdeal.Read
import proofs.«412666_j81913616270134_1_alg».proof.Proof.Spec

noncomputable section

open Idealize.ShloMosaic Idealize.ShloMosaic.TcCoe Idealize.SL.Sem

namespace Cert.ReferenceIdeal.RefValue

open Cert.ReferenceIdeal Cert.ReferenceIdeal.Gen Cert.ReferenceIdeal.Read Idealize.ShloMosaic.ValueIdx Cert.Spec

/-- The reference's integer weights, contraction axis first, as reals. -/
def wt (x1 : (⟨S4096x2048, .i32⟩ : BufTy).Contents (Elt Ideal)) (x5 x6 : (⟨S4096x32, .i32⟩ : BufTy).Contents (Elt Ideal)) :
    (⟨2, ![4096, 4096]⟩ : Shape).Idx → EReal := fun j =>
  ofWord (val_main_v17 (F := Ideal) x1 x5 x6 (ix2 (j 1) (j 0)))

/-- The reference's stage before the last reshape is the specification of its arguments. -/
theorem stage_eq (x0 : (⟨S4x2048x4096, .i32⟩ : BufTy).Contents (Elt Ideal)) (x1 : (⟨S4096x2048, .i32⟩ : BufTy).Contents (Elt Ideal))
    (x2 x3 x4 : (⟨S1x4096, .f32⟩ : BufTy).Contents (Elt Ideal)) (x5 x6 : (⟨S4096x32, .i32⟩ : BufTy).Contents (Elt Ideal)) :
    val_main_v25 (F := Ideal) x0 x1 x2 x3 x4 x5 x6
      = affine (val_main_v0 (F := Ideal) x0) (wt x1 x5 x6) x3 x4 x2 := by
  funext i
  have el : ∀ k : Fin 4096, lidx_main_v19 i k = ix2 (i 0) k := fun k =>
    funext fun a => Fin.ext (by match a with | ⟨0, _⟩ => rfl | ⟨1, _⟩ => rfl)
  have er : ∀ k : Fin 4096, ridx_main_v19 i k = ix2 (i 1) k := fun k =>
    funext fun a => Fin.ext (by match a with | ⟨0, _⟩ => rfl | ⟨1, _⟩ => rfl)
  have e20 : idx_main_v20 i = ix2 (0 : Fin 1) (i 1) := funext fun a => Fin.ext (by match a with | ⟨0, _⟩ => rfl | ⟨1, _⟩ => rfl)
  have e22 : idx_main_v22 i = ix2 (0 : Fin 1) (i 1) := funext fun a => Fin.ext (by match a with | ⟨0, _⟩ => rfl | ⟨1, _⟩ => rfl)
  have e24 : idx_main_v24 i = ix2 (0 : Fin 1) (i 1) := funext fun a => Fin.ext (by match a with | ⟨0, _⟩ => rfl | ⟨1, _⟩ => rfl)
  rw [val_main_v25_apply, val_main_v23_apply, val_main_v21_apply, val_main_v19_apply, val_main_v20_apply,
    val_main_v22_apply, val_main_v24_apply, e20, e22, e24]
  simp only [el, er, val_main_v1_apply, val_main_v18_apply]
  rfl

end Cert.ReferenceIdeal.RefValue

end
-- ==== Proof.Bridge.lean ====
/-
  The two programs meet: the arrays the kernel's region finds are the reference's own stages of the same arguments.
  The activations are the input reshaped to 8192 rows, on both sides. The kernel's weights are the reference's integer
  weight matrix converted to reals and transposed, so its entry (k, o) is the reference's integer at (o, k); the
  integer-to-real conversion is exact whatever float format it names, which is why a bf16 and an f32 conversion
  agree over the extended reals. The three rows are the arguments themselves.
-/
import proofs.«412666_j81913616270134_1_alg».proof.Proof.KValue
import proofs.«412666_j81913616270134_1_alg».proof.Proof.RefValue

noncomputable section

open Idealize.ShloMosaic Idealize.ShloMosaic.TcCoe Idealize.SL.Sem

namespace Cert.Bridge

open Cert.KernelIdeal Cert.KernelIdeal.Gen Idealize.ShloMosaic.ValueIdx

variable (m : (ℓ : Loc nD τ sig) → Buf (Elt Ideal) ℓ)

/-- The activations the region finds are the reference's reshaped input. -/
theorem activations_eq (c : Dev nD) :
    Accum.X m c = Cert.ReferenceIdeal.Read.val_main_v0 (F := Ideal) (m ((c.tc : Thread nD τ).loc main_arg0)) := by
  show StableHlo.after hostOps0 (fun b => m (c, b)) (Proc.devRef .tc main_v0) = _
  after_results
  rfl

set_option maxHeartbeats 2000000 in
/-- The weights the region finds, before the transpose, are the reference's integer weights converted. -/
theorem weights_host (c : Dev nD) :
    (V m c main_v18 : S4096x4096.Idx → EReal)
      = transpose S4096x4096 [1, 0] (sitofp (F := Ideal) .bf16 (Cert.ReferenceIdeal.Read.val_main_v17 (F := Ideal) (m ((c.tc : Thread nD τ).loc main_arg1)) (m ((c.tc : Thread nD τ).loc main_arg5)) (m ((c.tc : Thread nD τ).loc main_arg6))))
          transposes_S4096x4096_S4096x4096_1_0 := by
  show StableHlo.after hostOps0 (fun b => m (c, b)) (Proc.devRef .tc main_v18) = _
  after_results
  rfl

/-- So the kernel's weights are the reference's, contraction axis first, as reals. -/
theorem weights_eq (c : Dev nD) :
    Accum.W m c = Cert.ReferenceIdeal.RefValue.wt (m ((c.tc : Thread nD τ).loc main_arg1)) (m ((c.tc : Thread nD τ).loc main_arg5)) (m ((c.tc : Thread nD τ).loc main_arg6)) := by
  funext j
  show (V m c main_v18 : S4096x4096.Idx → EReal) j = _
  rw [weights_host m c, transpose_apply [1, 0] _ transposes_S4096x4096_S4096x4096_1_0 j (ix2 (j 1) (j 0))
    (fun b => match b with | ⟨0, _⟩ => rfl | ⟨1, _⟩ => rfl)]
  rfl

/-- The kernel's result array is the specification of the reference's stages of the same arguments. -/
theorem result_eq (c : Dev nD) :
    KValue.result m c
      = Cert.Spec.affine (Cert.ReferenceIdeal.Read.val_main_v0 (F := Ideal) (m ((c.tc : Thread nD τ).loc main_arg0)))
          (Cert.ReferenceIdeal.RefValue.wt (m ((c.tc : Thread nD τ).loc main_arg1)) (m ((c.tc : Thread nD τ).loc main_arg5)) (m ((c.tc : Thread nD τ).loc main_arg6))) (m ((c.tc : Thread nD τ).loc main_arg3)) (m ((c.tc : Thread nD τ).loc main_arg4)) (m ((c.tc : Thread nD τ).loc main_arg2)) := by
  unfold KValue.result
  rw [activations_eq m c, weights_eq m c, V_main_arg3 m c, V_main_arg4 m c, V_main_arg2 m c]

end Cert.Bridge

end
-- ==== Proof.lean ====
/-
  The certificate: an int4-weight / int8-activation linear layer as one tiled matrix product with an affine epilogue,
  against its plain reference, over the extended reals.
  Both programs unpack and dequantize the weights with the same integer operations and convert integers to reals
  exactly; both then compute `(sum over k of x[r, k] * w[o, k]) * a[o] + b[o] + bias[o]`. The kernel sums the
  contraction axis in eight runs of 512 carried in an accumulator block across grid points, the reference in one sum;
  regrouping a finite sum needs only commutativity and associativity of addition, so nothing is asked of the inputs
  beyond the stated precondition, which the value argument never opens. The frames of the two kernels are the
  generated ones; the reference's frame is its run with the result dropped; the idealization rewrote nothing.
-/
import proofs.«412666_j81913616270134_1_alg».proof.Defs
import proofs.«412666_j81913616270134_1_alg».proof.Proof.Gen.Kernel
import proofs.«412666_j81913616270134_1_alg».proof.Proof.Gen.Kernel.Skeleton
import proofs.«412666_j81913616270134_1_alg».proof.Proof.Gen.Kernel.Launch
import proofs.«412666_j81913616270134_1_alg».proof.Proof.Gen.Kernel.Points
import proofs.«412666_j81913616270134_1_alg».proof.Proof.Gen.Kernel.Frame
import proofs.«412666_j81913616270134_1_alg».proof.Proof.Gen.KernelIdeal
import proofs.«412666_j81913616270134_1_alg».proof.Proof.Gen.KernelIdeal.Skeleton
import proofs.«412666_j81913616270134_1_alg».proof.Proof.Gen.KernelIdeal.Launch
import proofs.«412666_j81913616270134_1_alg».proof.Proof.Gen.KernelIdeal.Points
import proofs.«412666_j81913616270134_1_alg».proof.Proof.Gen.KernelIdeal.Frame
import proofs.«412666_j81913616270134_1_alg».proof.Proof.Gen.ReferenceIdeal
import proofs.«412666_j81913616270134_1_alg».proof.Proof.Gen.Pre_finite_inputs
import proofs.«412666_j81913616270134_1_alg».proof.Proof.Gen.ReferenceIdeal.Run
import proofs.«412666_j81913616270134_1_alg».proof.Proof.Gen.ReferenceIdeal.Read
import Idealize.ShloMosaic.Adequacy
import Idealize.ShloMosaic.Init

import proofs.«412666_j81913616270134_1_alg».proof.Proof.Bridge

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- The kernel's result is the specification of the arrays its region finds, reshaped; the reference's is the
    specification of its own stages, reshaped; on agreeing arguments those arrays are the same. -/
theorem algebraic : Cert.algebraic_KernelIdeal_ReferenceIdeal := by
  intro m ρ m' ρ' _ hagree
  refine ⟨fun c => shapeCast Cert.KernelIdeal.S4x2048x4096 (Cert.KernelIdeal.KValue.result m c)
      Cert.KernelIdeal.Gen.shapeCasts_S8192x4096_S4x2048x4096, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq]
  unfold Cert.ReferenceIdeal.Read.val_main_v26
  rw [Cert.ReferenceIdeal.RefValue.stage_eq, (hagree c).1, (hagree c).2.1, (hagree c).2.2.1, (hagree c).2.2.2.1,
    (hagree c).2.2.2.2.1, (hagree c).2.2.2.2.2.1, (hagree c).2.2.2.2.2.2]
  exact congrArg (fun z => shapeCast Cert.KernelIdeal.S4x2048x4096 z Cert.KernelIdeal.Gen.shapeCasts_S8192x4096_S4x2048x4096)
    (Cert.Bridge.result_eq m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
